-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x256x64 : Shape := ⟨3, ![2, 256, 64]⟩
abbrev S2x1600000 : Shape := ⟨2, ![2, 1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S2x256x64 : S_.BroadcastsInDim S2x256x64 (![] : Fin 0 → Fin S2x256x64.rank)
  reducesTo_S2x256x64_S_d0_1_2 : S2x256x64.ReducesTo [0, 1, 2] S_
  bcast_S_S2x1600000 : S_.BroadcastsInDim S2x1600000 (![] : Fin 0 → Fin S2x1600000.rank)
  reducesTo_S2x1600000_S_d0_1 : S2x1600000.ReducesTo [0, 1] S_

variable [Facts]

def fn {F : FTy → Type} [FloatOps F] (main_arg0 : FVec F S100000x256 .f32) (main_arg1 : FVec F S2x256x64 .f32) (main_arg2 : FVec F S2x1600000 .f32) (main_arg3 : IVec S2x1600000 32) (main_arg4 : IVec S2x1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S2x256x64 .f32 := Host.absf main_arg1
  let main_cst_0 : FVec F S_ .f32 := constant S_ .f32 0x7F800000#32
  let main_v5 : FVec F S2x256x64 .f32 := broadcastInDim S2x256x64 ![] bcast_S_S2x256x64 main_cst_0
  let main_v6 : IVec S2x256x64 1 := cmpf .olt main_v4 main_v5
  let main_c_1 : IVec S_ 1 := constantI S_ 1 1#1
  let main_v7 : IVec S_ 1 := (fun x v => Host.reduce IntOp.andi x v reducesTo_S2x256x64_S_d0_1_2 h_S_) main_v6 main_c_1
  let main_v8 : IVec S_ 1 := andi main_v3 main_v7
  let main_v9 : FVec F S2x1600000 .f32 := Host.absf main_arg2
  let main_cst_2 : FVec F S_ .f32 := constant S_ .f32 0x7F800000#32
  let main_v10 : FVec F S2x1600000 .f32 := broadcastInDim S2x1600000 ![] bcast_S_S2x1600000 main_cst_2
  let main_v11 : IVec S2x1600000 1 := cmpf .olt main_v9 main_v10
  let main_c_3 : IVec S_ 1 := constantI S_ 1 1#1
  let main_v12 : IVec S_ 1 := (fun x v => Host.reduce IntOp.andi x v reducesTo_S2x1600000_S_d0_1 h_S_) main_v11 main_c_3
  let main_v13 : IVec S_ 1 := andi main_v8 main_v12
  main_v13
-- ==== Kernel.lean ====
abbrev S100000x256 : Shape := ⟨2, ![100000, 256]⟩
abbrev S2x256x64 : Shape := ⟨3, ![2, 256, 64]⟩
abbrev S2x1600000 : Shape := ⟨2, ![2, 1600000]⟩
abbrev S2x100000x64 : Shape := ⟨3, ![2, 100000, 64]⟩
abbrev S5000x256 : Shape := ⟨2, ![5000, 256]⟩
abbrev S1x256x64 : Shape := ⟨3, ![1, 256, 64]⟩
abbrev S1x5000x64 : Shape := ⟨3, ![1, 5000, 64]⟩
abbrev S256x64 : Shape := ⟨2, ![256, 64]⟩
abbrev S5000x64 : Shape := ⟨2, ![5000, 64]⟩
abbrev S1x1600000 : Shape := ⟨2, ![1, 1600000]⟩
abbrev S1600000 : Shape := ⟨1, ![1600000]⟩
abbrev S1x100000x64 : Shape := ⟨3, ![1, 100000, 64]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩

abbrev nBuf : Space → Nat
  | .hbm => 55
  | .vmem => 12
  | .smem => 0
  | _ => 0

abbrev bufTy : (tb : Table) → Fin (tcTables nBuf tb) → BufTy
  | .hbm, ⟨0, _⟩ => ⟨S100000x256, .f32⟩
  | .hbm, ⟨1, _⟩ => ⟨S2x256x64, .f32⟩
  | .hbm, ⟨2, _⟩ => ⟨S2x1600000, .f32⟩
  | .hbm, ⟨3, _⟩ => ⟨S2x1600000, .i32⟩
  | .hbm, ⟨4, _⟩ => ⟨S2x1600000, .i32⟩
  | .hbm, ⟨5, _⟩ => ⟨S2x100000x64, .f32⟩
  | .hbm, ⟨6, _⟩ => ⟨S1x1600000, .f32⟩
  | .hbm, ⟨7, _⟩ => ⟨S1600000, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1x100000x64, .f32⟩
  | .hbm, ⟨13, _⟩ => ⟨S100000x64, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S1600000x1, .f32⟩
  | .hbm, ⟨24, _⟩ => ⟨S1600000x64, .f32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S1x1600000, .f32⟩
  | .hbm, ⟨31, _⟩ => ⟨S1600000, .f32⟩
  | .hbm, ⟨32, _⟩ => ⟨S1x1600000, .i32⟩
  | .hbm, ⟨33, _⟩ => ⟨S1600000, .i32⟩
  | .hbm, ⟨34, _⟩ => ⟨S1x1600000, .i32⟩
  | .hbm, ⟨35, _⟩ => ⟨S1600000, .i32⟩
  | .hbm, ⟨36, _⟩ => ⟨S1x100000x64, .f32⟩
  | .hbm, ⟨37, _⟩ => ⟨S100000x64, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S1600000x1, .f32⟩
  | .hbm, ⟨48, _⟩ => ⟨S1600000x64, .f32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S1x256x64, .f32⟩
  | .local _ .vmem, ⟨3, _⟩ => ⟨S1x256x64, .f32⟩
  | .local _ .vmem, ⟨4, _⟩ => ⟨S1x5000x64, .f32⟩
  | .local _ .vmem, ⟨5, _⟩ => ⟨S1x5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_1 : Ref sig .tc := ⟨.hbm, 38, rfl⟩
abbrev main_v30 : Ref sig .tc := ⟨.hbm, 39, rfl⟩
abbrev main_v31 : Ref sig .tc := ⟨.hbm, 40, rfl⟩
abbrev main_c_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x5000x64_S1x5000x64_0_0_0 : ∀ a, (![0, 0, 0] : Fin 3 → Nat) a + S1x5000x64.size a ≤ S1x5000x64.size a
  h_S1x5000x64 : 0 < S1x5000x64.numel
  shapeCasts_S1x5000x64_S5000x64 : S1x5000x64.ShapeCasts S5000x64
  shapeCasts_S5000x64_S1x5000x64 : S5000x64.ShapeCasts S1x5000x64
  slices_S2x1600000_S1x1600000_0_0 : S2x1600000.Slices ![0, 0] S1x1600000
  shapeCasts_S1x1600000_S1600000 : S1x1600000.ShapeCasts S1600000
  slices_S2x100000x64_S1x100000x64_0_0_0 : S2x100000x64.Slices ![0, 0, 0] S1x100000x64
  shapeCasts_S1x100000x64_S100000x64 : S1x100000x64.ShapeCasts S100000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S2x1600000_S1x1600000_1_0 : S2x1600000.Slices ![1, 0] S1x1600000
  slices_S2x100000x64_S1x100000x64_1_0_0 : S2x100000x64.Slices ![1, 0, 0] S1x100000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  dot_S5000x256_S256x64_S5000x64_1_0_0_1_n_n_wf : DotDims.WF S5000x256 S256x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64.size a ≤ S2x256x64.size a
  hwx0_1 : ∀ i : grid0.Coords, EltTy.bits .f32 = 32 ∨ (Rect.block (s := S2x256x64) S1x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5000x64.size a ≤ S2x100000x64.size a
  hwx0_2 : ∀ i : grid0.Coords, EltTy.bits .f32 = 32 ∨ (Rect.block (s := S2x100000x64) S1x5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x256x64 : Shape := ⟨3, ![2, 256, 64]⟩
abbrev S2x1600000 : Shape := ⟨2, ![2, 1600000]⟩
abbrev S_ : Shape := ⟨0, ![]⟩
abbrev S100000x64 : Shape := ⟨2, ![100000, 64]⟩
abbrev S1x256x64 : Shape := ⟨3, ![1, 256, 64]⟩
abbrev S256x64 : Shape := ⟨2, ![256, 64]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩

abbrev nBuf : Space → Nat
  | .hbm => 62
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x256x64, .f32⟩
  | .hbm, ⟨2, _⟩ => ⟨S2x1600000, .f32⟩
  | .hbm, ⟨3, _⟩ => ⟨S2x1600000, .i32⟩
  | .hbm, ⟨4, _⟩ => ⟨S2x1600000, .i32⟩
  | .hbm, ⟨5, _⟩ => ⟨S_, .f32⟩
  | .hbm, ⟨6, _⟩ => ⟨S100000x64, .f32⟩
  | .hbm, ⟨7, _⟩ => ⟨S1x256x64, .f32⟩
  | .hbm, ⟨8, _⟩ => ⟨S256x64, .f32⟩
  | .hbm, ⟨9, _⟩ => ⟨S100000x64, .f32⟩
  | .hbm, ⟨10, _⟩ => ⟨S1x1600000, .f32⟩
  | .hbm, ⟨11, _⟩ => ⟨S1600000, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S1600000x1, .f32⟩
  | .hbm, ⟨26, _⟩ => ⟨S1600000x64, .f32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S100000x64, .f32⟩
  | .hbm, ⟨33, _⟩ => ⟨S1x256x64, .f32⟩
  | .hbm, ⟨34, _⟩ => ⟨S256x64, .f32⟩
  | .hbm, ⟨35, _⟩ => ⟨S100000x64, .f32⟩
  | .hbm, ⟨36, _⟩ => ⟨S1x1600000, .f32⟩
  | .hbm, ⟨37, _⟩ => ⟨S1600000, .f32⟩
  | .hbm, ⟨38, _⟩ => ⟨S1x1600000, .i32⟩
  | .hbm, ⟨39, _⟩ => ⟨S1600000, .i32⟩
  | .hbm, ⟨40, _⟩ => ⟨S1x1600000, .i32⟩
  | .hbm, ⟨41, _⟩ => ⟨S1600000, .i32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S1600000x1, .f32⟩
  | .hbm, ⟨52, _⟩ => ⟨S1600000x64, .f32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_2 : Ref sig .tc := ⟨.hbm, 42, rfl⟩
abbrev main_v33 : Ref sig .tc := ⟨.hbm, 43, rfl⟩
abbrev main_v34 : Ref sig .tc := ⟨.hbm, 44, rfl⟩
abbrev main_c_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_call0_cst : Ref sig .tc := ⟨.hbm, 59, rfl⟩
abbrev main_call0_v0 : Ref sig .tc := ⟨.hbm, 60, rfl⟩
abbrev main_v47 : Ref sig .tc := ⟨.hbm, 61, rfl⟩

abbrev nD : Nat := 1
abbrev τ : Topo := Topo.v7x

variable {F : FTy → Type} [FloatOps F]

class Facts₀ : Prop where
  bcast_S_S100000x64 : S_.BroadcastsInDim S100000x64 (![] : Fin 0 → Fin S100000x64.rank)
  slices_S2x256x64_S1x256x64_0_0_0 : S2x256x64.Slices ![0, 0, 0] S1x256x64
  shapeCasts_S1x256x64_S256x64 : S1x256x64.ShapeCasts S256x64
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  slices_S2x256x64_S1x256x64_1_0_0 : S2x256x64.Slices ![1, 0, 0] S1x256x64
  slices_S2x1600000_S1x1600000_1_0 : S2x1600000.Slices ![1, 0] S1x1600000
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.PreSup.lean ====
/-
  The first kernel region's output array, as ONE function of the arrays it reads.

  The grid is 2 supports × 20 row blocks.  At point (s, b) the body loads rows 5000·b … 5000·b + 4999 of the feature
  matrix and the whole of support s's weight matrix, multiplies them into a zero accumulator, and stores the
  5000 × 64 product as block (s, b, 0) of the output.  On the extended reals the change of float format before the
  product is the identity and the product into zero is the plain sum over the contracted coordinate, so the block's
  entry (p, q) is ∑_l x[5000·b + p, l] · W[s, l, q]: the entry (s, 5000·b + p, q) of
      preSup x W (s, n, d) = ∑_l x[n, l] · W[s, l, d].
  The 40 blocks tile the output array, so after the region it IS `preSup` of the two argument arrays.
-/
import proofs.«134036_j72430328480132_1_alg».proof.Proof.Gen.KernelIdeal.Frame
import proofs.«134036_j72430328480132_1_alg».proof.Proof.LibMatmulPlain
import Idealize.ShloMosaic.Lib.Pipeline.Value
import Idealize.ShloMosaic.Lib.ValueIdx
import Idealize.ShloMosaic.Lib.ValueLayout

set_option maxRecDepth 16384

noncomputable section

namespace Cert.KernelIdeal.PreSup

open Cert.KernelIdeal Cert.KernelIdeal.Gen Idealize.ShloMosaic Idealize.ShloMosaic.TcCoe Idealize.SL.Sem
open Idealize.ShloMosaic.ValueIdx
open Idealize.ShloMosaic.Pipeline (Dat)

/-! ## The specification -/

/-- Entry (s, n, d) of the per-support projection: row n of the features against column d of support s's weights. -/
def preSupAt (x : S100000x256.Idx → EReal) (w : S2x256x64.Idx → EReal) (s : Fin 2) (n : Fin 100000) (d : Fin 64) : EReal :=
  ∑ l : Fin 256, x (ix2 n l) * w (ix3 s l d)

/-- The per-support projection as an array over supports × nodes × output features. -/
def preSup (x : S100000x256.Idx → EReal) (w : S2x256x64.Idx → EReal) : S2x100000x64.Idx → EReal :=
  fun i => preSupAt x w (i 0) (i 1) (i 2)

/-! ## The body's stored value at an entry -/

/-- Entry (p, q) of the stored block: the row p of the loaded feature block against column q of the loaded weight
    block (the unit leading axis of either side carries nothing). -/
theorem pay_apply (x0 : Vec Ideal S5000x256 .f32) (x1 : Vec Ideal S1x256x64 .f32) (u : Fin 1) (p : Fin 5000) (q : Fin 64) :
    k0_pay1 x0 x1 (ix3 u p q) = ∑ l : Fin 256, x0 (ix2 p l) * x1 (ix3 (0 : Fin 1) l q) := by
  unfold k0_pay1
  refine (shapeCast_ab_1ab_apply _ _ u p q).trans ?_
  refine (Cert.Gcn.matmul_plain_apply _ ⟨rfl, rfl, rfl, rfl, rfl, rfl⟩ none _ _ p q).trans ?_
  refine Finset.sum_congr rfl fun l _ => ?_
  refine congrArg (fun z => x0 (ix2 p l) * z) ?_
  exact shapeCast_1ab_ab_apply _ _ l q

/-- If the loaded feature block is rows 5000·b … of `X` and the loaded weight block is support s of `Wt`, the stored
    block's entry `y` is `preSup X Wt` at the array index `i` that block (s, b) places `y` at. -/
theorem pay_eq_preSup (x0 : Vec Ideal S5000x256 .f32) (x1 : Vec Ideal S1x256x64 .f32)
    (X : S100000x256.Idx → EReal) (Wt : S2x256x64.Idx → EReal) (s b : ℕ)
    (hx0 : ∀ (y : S5000x256.Idx) (k : S100000x256.Idx), (k 0).val = b * 5000 + (y 0).val → (k 1).val = (y 1).val → x0 y = X k)
    (hx1 : ∀ (y : S1x256x64.Idx) (k : S2x256x64.Idx), (k 0).val = s + (y 0).val → (k 1).val = (y 1).val → (k 2).val = (y 2).val → x1 y = Wt k)
    (y : S1x5000x64.Idx) (i : S2x100000x64.Idx)
    (h0 : (i 0).val = s + (y 0).val) (h1 : (i 1).val = b * 5000 + (y 1).val) (h2 : (i 2).val = (y 2).val) :
    k0_pay1 x0 x1 y = preSup X Wt i := by
  obtain ⟨u, p, q, rfl⟩ : ∃ (u : Fin 1) (p : Fin 5000) (q : Fin 64), y = ix3 u p q := ⟨y 0, y 1, y 2, eq_ix3 y⟩
  have hu : u.val = 0 := by have := u.isLt; omega
  have h0' : (i 0).val = s + u.val := h0
  have h1' : (i 1).val = b * 5000 + p.val := h1
  have h2' : (i 2).val = q.val := h2
  rw [pay_apply]
  unfold preSup preSupAt
  refine Finset.sum_congr rfl fun l _ => ?_
  have e0 : x0 (ix2 p l) = X (ix2 (i 1) l) := hx0 _ _ h1' rfl
  have e1 : x1 (ix3 (0 : Fin 1) l q) = Wt (ix3 (i 0) l (i 2)) :=
    hx1 _ _ (show (i 0).val = s + 0 by omega) rfl h2'
  rw [e0, e1]

/-! ## The blocks, and the array they fill -/

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the 40 grid points: the feature window's row block is the output's, the weight
    window's support is the output's, every other block index is zero. -/
theorem idx_facts : ∀ t : Fin cfg0.N,
    win0_0.index t (0 : Fin 2) = win0_2.index t (1 : Fin 3) ∧ win0_0.index t (1 : Fin 2) = 0
    ∧ win0_1.index t (0 : Fin 3) = win0_2.index t (0 : Fin 3) ∧ win0_1.index t (1 : Fin 3) = 0 ∧ win0_1.index t (2 : Fin 3) = 0
    ∧ win0_2.index t (2 : Fin 3) = 0 ∧ win0_2.index t (0 : Fin 3) ≤ 1 ∧ win0_2.index t (1 : Fin 3) ≤ 19 :=
  (by decide +kernel : ∀ t : Fin grid0.N, _)

/-- Every (support, row block) is some grid point's output block. -/
theorem idx_onto : ∀ (q0 : Fin 2) (q1 : Fin 20), ∃ t : Fin cfg0.N, win0_2.index t = ![q0.val, q1.val, 0] :=
  (by decide +kernel : ∀ (q0 : Fin 2) (q1 : Fin 20), ∃ t : Fin grid0.N, win0_2.index t = ![q0.val, q1.val, 0])

/-- What point `t` writes back is block `t` of `preSup` of the arrays the region finds. -/
theorem flushed_eq (c : Dev nD) (t : Fin cfg0.N) :
    (dat0 V c).flushed 2 t = ((cfg0.win 2).blk t).view.read (Elt Ideal) (preSup (V c main_arg0) (V c main_arg1)) := by
  show (cfg0.win 2).cut (grid0.coords t) ((dat0 V c).after 2 t) = _
  rw [after0_2]
  unfold out0_2
  rw [View.canon_unit_zero hz3]
  simp only [View.ld_unit_zero (S := S5000x256) hz2, View.ld_unit_zero (S := S1x256x64) hz3]
  obtain ⟨e0, e1, e2, e3, e4, e5, e6, e7⟩ := idx_facts t
  funext j
  show k0_pay1 (iblk0 V c 0 t) (iblk0 V c 1 t) j = preSup (V c main_arg0) (V c main_arg1) (((cfg0.win 2).blk t).view.emb j)
  refine pay_eq_preSup (iblk0 V c 0 t) (iblk0 V c 1 t) (V c main_arg0) (V c main_arg1)
    (win0_2.index t (0 : Fin 3)) (win0_2.index t (1 : Fin 3)) ?_ ?_ j _ ?_ ?_ ?_
  · intro y k hk0 hk1
    show V c main_arg0 (((cfg0.win 0).blk t).view.emb y) = V c main_arg0 k
    refine congrArg (V c main_arg0) ?_
    funext a; apply Fin.ext
    match a with
    | ⟨0, _⟩ => show win0_0.index t (0 : Fin 2) * 5000 + 1 * (y 0).val = (k 0).val; omega
    | ⟨1, _⟩ => show win0_0.index t (1 : Fin 2) * 256 + 1 * (y 1).val = (k 1).val; omega
  · intro y k hk0 hk1 hk2
    show V c main_arg1 (((cfg0.win 1).blk t).view.emb y) = V c main_arg1 k
    refine congrArg (V c main_arg1) ?_
    funext a; apply Fin.ext
    match a with
    | ⟨0, _⟩ => show win0_1.index t (0 : Fin 3) * 1 + 1 * (y 0).val = (k 0).val; omega
    | ⟨1, _⟩ => show win0_1.index t (1 : Fin 3) * 256 + 1 * (y 1).val = (k 1).val; omega
    | ⟨2, _⟩ => show win0_1.index t (2 : Fin 3) * 64 + 1 * (y 2).val = (k 2).val; omega
  · show win0_2.index t (0 : Fin 3) * 1 + 1 * (j 0).val = win0_2.index t (0 : Fin 3) + (j 0).val; omega
  · show win0_2.index t (1 : Fin 3) * 5000 + 1 * (j 1).val = win0_2.index t (1 : Fin 3) * 5000 + (j 1).val; omega
  · show win0_2.index t (2 : Fin 3) * 64 + 1 * (j 2).val = (j 2).val; omega

/-- An index of the output array is in point `t`'s block iff each coordinate is in the block's range on its axis. -/
theorem mem_blk (t : Fin cfg0.N) (i : S2x100000x64.Idx) :
    i ∈ ((cfg0.win 2).blk t).view.set ↔ ∀ a : Fin 3, win0_2.index t a * S1x5000x64.size a ≤ (i a).val ∧ (i a).val < win0_2.index t a * S1x5000x64.size a + S1x5000x64.size a := by
  show i ∈ ((View.whole main_v0).slice (win0_2.rect t)).set ↔ _
  rw [View.set_slice_whole, Rect.mem_set_unit]
  exact Iff.rfl

/-- Every index of the output array is in some point's block: support `i 0`, row block `i 1 / 5000`. -/
theorem cover (i : S2x100000x64.Idx) : ∃ t : Fin cfg0.N, (cfg0.win 2).flush t = true ∧ i ∈ ((cfg0.win 2).blk t).view.set := by
  have hi0 : (i 0).val < 2 := (i 0).isLt
  have hi1 : (i 1).val < 100000 := (i 1).isLt
  have hi2 : (i 2).val < 64 := (i 2).isLt
  obtain ⟨t, ht⟩ := idx_onto ⟨(i 0).val, hi0⟩ ⟨(i 1).val / 5000, by omega⟩
  have q0 : win0_2.index t (0 : Fin 3) = (i 0).val := congrFun ht 0
  have q1 : win0_2.index t (1 : Fin 3) = (i 1).val / 5000 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 5000 ≤ (i 1).val ∧ (i 1).val < win0_2.index t (1 : Fin 3) * 5000 + 5000; omega
  | ⟨2, _⟩ => show win0_2.index t (2 : Fin 3) * 64 ≤ (i 2).val ∧ (i 2).val < win0_2.index t (2 : Fin 3) * 64 + 64; omega

/-- After the region the output array is `preSup` of the feature and weight arrays as the region found them. -/
theorem final (c : Dev nD) : (dat0 V c).arrAt 2 cfg0.N = preSup (V c main_arg0) (V c main_arg1) :=
  (dat0 V c).arrAt_eq_of_cover 2 (preSup (V c main_arg0) (V c main_arg1)) (fun t _ => flushed_eq V c t) cover

end Cert.KernelIdeal.PreSup

end
-- ==== Proof.AddRelu.lean ====
/-
  The second kernel region's output array, as ONE function of the arrays it reads.

  The grid is 20 row blocks.  At point b the body loads rows 5000·b … 5000·b + 4999 of its two operands, adds them
  entry by entry and takes the maximum with zero, and stores the result as row block b of the output.  Every operation
  is entrywise and the three windows move together, so the block is block b of
      addRelu A B i = max (A i + B i) 0
  and the 20 blocks tile the output array: after the region it IS `addRelu` of the two operand arrays.  Nothing here
  depends on how a float is read, so it is stated for any reading.
-/
import proofs.«134036_j72430328480132_1_alg».proof.Proof.Gen.KernelIdeal.Frame
import Idealize.ShloMosaic.Lib.Pipeline.Value

set_option maxRecDepth 16384

noncomputable section

namespace Cert.KernelIdeal.AddRelu

open Cert.KernelIdeal Cert.KernelIdeal.Gen Idealize.ShloMosaic Idealize.ShloMosaic.TcCoe Idealize.SL.Sem
open Idealize.ShloMosaic.Pipeline (Dat)

variable {F : FTy → Type} [FloatOps F]

/-- The sum of two arrays over nodes × output features, clamped below at zero, entry by entry. -/
def addRelu (A B : S100000x64.Idx → Elt F .f32) : S100000x64.Idx → Elt F .f32 :=
  fun i => FloatOps.maximumf (FloatOps.addf (A i) (B i)) (Scalar.ofBits .f32 0x00000000#32)

/-- The body's stored value is the entrywise sum of its two loaded blocks clamped at zero (a reshape to the same shape
    is the identity). -/
theorem pay_eq (x0 x1 : Vec F S5000x64 .f32) :
    k1_pay1 x0 x1 = fun y => FloatOps.maximumf (FloatOps.addf (x0 y) (x1 y)) (Scalar.ofBits .f32 0x00000000#32) := by
  unfold k1_pay1
  simp only [shapeCast_self]
  rfl

variable (V : (c : Dev nD) → (b : Ref sig .tc) → Buf (Elt F) ((c : Thread nD τ).loc b))

theorem hz2 : (![0, 0] : Fin 2 → Nat) = fun _ => 0 := funext fun a => by fin_cases a <;> rfl

/-- The printed index maps over the 20 grid points: the three windows' row blocks coincide and the column block is zero. -/
theorem idx_facts : ∀ t : Fin cfg1.N,
    win1_0.index t (0 : Fin 2) = win1_2.index t (0 : Fin 2) ∧ win1_0.index t (1 : Fin 2) = win1_2.index t (1 : Fin 2)
    ∧ win1_1.index t (0 : Fin 2) = win1_2.index t (0 : Fin 2) ∧ win1_1.index t (1 : Fin 2) = win1_2.index t (1 : Fin 2)
    ∧ win1_2.index t (0 : Fin 2) ≤ 19 ∧ win1_2.index t (1 : Fin 2) = 0 :=
  (by decide +kernel : ∀ t : Fin grid1.N, _)

/-- Every row block is some grid point's output block. -/
theorem idx_onto : ∀ (q0 : Fin 20), ∃ t : Fin cfg1.N, win1_2.index t = ![q0.val, 0] :=
  (by decide +kernel : ∀ (q0 : Fin 20), ∃ t : Fin grid1.N, win1_2.index t = ![q0.val, 0])

/-- What point `t` writes back is block `t` of `addRelu` of the two operand arrays the region finds. -/
theorem flushed_eq (c : Dev nD) (t : Fin cfg1.N) :
    (dat1 V c).flushed 2 t = ((cfg1.win 2).blk t).view.read (Elt F) (addRelu (V c main_v21) (V c main_v42)) := by
  show (cfg1.win 2).cut (grid1.coords t) ((dat1 V c).after 2 t) = _
  rw [after1_2]
  unfold out1_2
  rw [View.canon_unit_zero hz2]
  simp only [View.ld_unit_zero (S := S5000x64) hz2]
  rw [pay_eq]
  obtain ⟨e0, e1, e2, e3, e4, e5⟩ := idx_facts t
  funext j
  show FloatOps.maximumf (FloatOps.addf (V c main_v21 (((cfg1.win 0).blk t).view.emb j)) (V c main_v42 (((cfg1.win 1).blk t).view.emb j))) (Scalar.ofBits .f32 0x00000000#32)
    = FloatOps.maximumf (FloatOps.addf (V c main_v21 (((cfg1.win 2).blk t).view.emb j)) (V c main_v42 (((cfg1.win 2).blk t).view.emb j))) (Scalar.ofBits .f32 0x00000000#32)
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 64 + 1 * (j 1).val = win1_2.index t (1 : Fin 2) * 64 + 1 * (j 1).val; omega
  rw [h0, h1]

/-- An index of the output array is in point `t`'s block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v43).slice (win1_2.rect t)).set ↔ _
  rw [View.set_slice_whole, Rect.mem_set_unit]
  exact Iff.rfl

/-- Every index of the output array is in some point's block: row block `i 0 / 5000`. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After the region the output array is `addRelu` of the two operand arrays as the region found them. -/
theorem final (c : Dev nD) : (dat1 V c).arrAt 2 cfg1.N = addRelu (V c main_v21) (V c main_v42) :=
  (dat1 V c).arrAt_eq_of_cover 2 (addRelu (V c main_v21) (V c main_v42)) (fun t _ => flushed_eq V c t) cover

end Cert.KernelIdeal.AddRelu

end
-- ==== Proof.Tail.lean ====
/-
  One support's sparse product, as ONE function of its operands.  Row `s` of the edge tables gives, per edge `e`, a
  source node, a destination node and a weight.  A negative source is wrapped once by the node count; the dense
  matrix's row at that source is gathered, scaled by the edge's weight, and added into the destination's row of an
  array that starts at zero:  out[n, d] = ∑_{e : dst e = n} dense[src e, d] · val e.  Both programs apply exactly
  these operations to their per-support dense matrix, so the certificate carries them as this one function and never
  opens it: the two sides differ only in the dense matrix handed in.
-/
import Idealize.ShloMosaic.PureOps

noncomputable section

namespace Cert.GraphConv

open Idealize.ShloMosaic

variable {F : FTy → Type} [FloatOps F]

/-- nodes × output features -/
abbrev SN : Shape := ⟨2, ![100000, 64]⟩
/-- edges -/
abbrev SE : Shape := ⟨1, ![1600000]⟩
abbrev SE1 : Shape := ⟨2, ![1600000, 1]⟩
abbrev SEF : Shape := ⟨2, ![1600000, 64]⟩
/-- supports × edges -/
abbrev S2E : Shape := ⟨2, ![2, 1600000]⟩
abbrev S1E : Shape := ⟨2, ![1, 1600000]⟩
abbrev S0 : Shape := ⟨0, ![]⟩

/-- Gather the dense rows at the (wrapped) sources of support row `off`, scale each by its edge weight, and add each
    into its destination's row of the zero array. -/
def spmm (gd : GatherDims SN SE1 SEF) (sd : ScatterDims SN SE1 SEF) (off : Fin 2 → ℕ)
    (hsl : S2E.Slices off S1E) (hsc : S1E.ShapeCasts SE)
    (hb0 : S0.BroadcastsInDim SE (![] : Fin 0 → Fin SE.rank))
    (hb1 : SE.BroadcastsInDim SE1 (![0] : Fin 1 → Fin SE1.rank))
    (hb2 : SE1.BroadcastsInDim SEF (![0, 1] : Fin 2 → Fin SEF.rank))
    (hbz : S0.BroadcastsInDim SN (![] : Fin 0 → Fin SN.rank))
    (val : FVec F S2E .f32) (src dst : IVec S2E 32) (dense : FVec F SN .f32) : FVec F SN .f32 :=
  Host.scatterAdd sd (broadcastInDim SN ![] hbz (constant S0 .f32 0x00000000#32))
    (broadcastInDim SE1 ![0] hb1 (shapeCast SE (extractStridedSlice S1E off dst hsl) hsc))
    (mulf
      (Host.gather gd dense (broadcastInDim SE1 ![0] hb1
        (select (cmpi .slt (shapeCast SE (extractStridedSlice S1E off src hsl) hsc) (broadcastInDim SE ![] hb0 (constantI S0 32 0#32)))
          (addi (shapeCast SE (extractStridedSlice S1E off src hsl) hsc) (broadcastInDim SE ![] hb0 (constantI S0 32 100000#32)))
          (shapeCast SE (extractStridedSlice S1E off src hsl) hsc))))
      (broadcastInDim SEF ![0, 1] hb2 (broadcastInDim SE1 ![0] hb1 (shapeCast SE (extractStridedSlice S1E off val hsl) hsc))))

end Cert.GraphConv

end
-- ==== Proof.Result.lean ====
/-
  The result both programs compute, as ONE function of the five arguments:
      resultOf x W val src dst = addRelu (spmm₀ (row 0 of preSup x W)) (spmm₁ (row 1 of preSup x W)),
  where `preSup x W (s, n, d) = ∑_l x[n, l] · W[s, l, d]`, `row s` is support s of it as a nodes × features matrix,
  `spmm_s` gathers rows at support s's edge sources, scales by the edge weights and adds into the destinations' rows,
  and `addRelu A B = max (A + B) 0` entry by entry.
-/
import proofs.«134036_j72430328480132_1_alg».proof.Proof.PreSup
import proofs.«134036_j72430328480132_1_alg».proof.Proof.AddRelu
import proofs.«134036_j72430328480132_1_alg».proof.Proof.Tail

noncomputable section

namespace Cert.KernelIdeal.Whole

open Cert.KernelIdeal Idealize.ShloMosaic
open Cert.GraphConv (spmm)
open Facts₀

/-- Support 0 of an array over supports × nodes × features, as a nodes × features matrix. -/
abbrev row0 (P : S2x100000x64.Idx → EReal) : S100000x64.Idx → EReal :=
  shapeCast S100000x64 (extractStridedSlice S1x100000x64 ![0, 0, 0] P slices_S2x100000x64_S1x100000x64_0_0_0) shapeCasts_S1x100000x64_S100000x64
/-- Support 1 of it. -/
abbrev row1 (P : S2x100000x64.Idx → EReal) : S100000x64.Idx → EReal :=
  shapeCast S100000x64 (extractStridedSlice S1x100000x64 ![1, 0, 0] P slices_S2x100000x64_S1x100000x64_1_0_0) shapeCasts_S1x100000x64_S100000x64

/-- The sparse product of support 0's edge tables with a dense matrix, over this program's dimension records. -/
abbrev spmm0 (val : FVec Ideal S2x1600000 .f32) (src dst : IVec S2x1600000 32) (dense : FVec Ideal S100000x64 .f32) : FVec Ideal S100000x64 .f32 :=
  spmm gather_S100000x64_S1600000x1_S1600000x64_1_0_n_n_0_1_164 scatter_S100000x64_S1600000x1_S1600000x64_1_0_0_1 ![0, 0]
    slices_S2x1600000_S1x1600000_0_0 shapeCasts_S1x1600000_S1600000 bcast_S_S1600000 bcast_S1600000_S1600000x1_0
    bcast_S1600000x1_S1600000x64_0_1 bcast_S_S100000x64 val src dst dense
/-- The same for support 1's edge tables. -/
abbrev spmm1 (val : FVec Ideal S2x1600000 .f32) (src dst : IVec S2x1600000 32) (dense : FVec Ideal S100000x64 .f32) : FVec Ideal S100000x64 .f32 :=
  spmm gather_S100000x64_S1600000x1_S1600000x64_1_0_n_n_0_1_164 scatter_S100000x64_S1600000x1_S1600000x64_1_0_0_1 ![1, 0]
    slices_S2x1600000_S1x1600000_1_0 shapeCasts_S1x1600000_S1600000 bcast_S_S1600000 bcast_S1600000_S1600000x1_0
    bcast_S1600000x1_S1600000x64_0_1 bcast_S_S100000x64 val src dst dense

/-- The result as a function of the five argument arrays. -/
def resultOf (x : FVec Ideal S100000x256 .f32) (w : FVec Ideal S2x256x64 .f32) (val : FVec Ideal S2x1600000 .f32)
    (src dst : IVec S2x1600000 32) : FVec Ideal S100000x64 .f32 :=
  AddRelu.addRelu (F := Ideal) (spmm0 val src dst (row0 (PreSup.preSup x w))) (spmm1 val src dst (row1 (PreSup.preSup x w)))

end Cert.KernelIdeal.Whole

end
-- ==== Proof.KernelValue.lean ====
/-
  The kernel program's result, as ONE function of its five arguments.

  Between the two kernel regions the host takes each support's slice of the projection (region 0's output), gathers
  its rows at the edges' sources, scales by the edge weights and adds into the destinations' rows: the sparse product
  `spmm` of that support.  Region 1 then adds the two supports' results and clamps at zero.  So the result array is
      addRelu (spmm₀ (row 0 of preSup x W)) (spmm₁ (row 1 of preSup x W)).
  Read here: the two operand arrays region 1 is entered with, off the host stretch's fold (region 0's arrays at what
  its write-backs left, the three edge tables as launched); then the result buffer after the run.
-/
import proofs.«134036_j72430328480132_1_alg».proof.Proof.KernelRun
import proofs.«134036_j72430328480132_1_alg».proof.Proof.Result
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo
open Cert.GraphConv (spmm)
open Facts₀

variable (m : (ℓ : Loc nD τ sig) → Buf (Elt Ideal) ℓ) (ρ : Dev nD → PrngReg)

/-! ## Region 1's operands, off the host stretch -/

theorem W1_v0 (c : Dev nD) : W1 m ρ c (Proc.devRef .tc main_v0) = (dat0 (V0 m ρ) c).arrAt 2 cfg0.N := W1_arr m ρ c 2
theorem W1_arg2 (c : Dev nD) : W1 m ρ c (Proc.devRef .tc main_arg2) = m ((c : Thread nD τ).loc main_arg2) := W1_of_ne m ρ c main_arg2 (by decide)
theorem W1_arg3 (c : Dev nD) : W1 m ρ c (Proc.devRef .tc main_arg3) = m ((c : Thread nD τ).loc main_arg3) := W1_of_ne m ρ c main_arg3 (by decide)
theorem W1_arg4 (c : Dev nD) : W1 m ρ c (Proc.devRef .tc main_arg4) = m ((c : Thread nD τ).loc main_arg4) := W1_of_ne m ρ c main_arg4 (by decide)

set_option maxHeartbeats 2000000 in
/-- Region 1's first operand: support 0's sparse product of support 0 of region 0's output. -/
theorem entry_v21 (c : Dev nD) : V2 m ρ c main_v21
    = spmm0 (m ((c : Thread nD τ).loc main_arg2)) (m ((c : Thread nD τ).loc main_arg3)) (m ((c : Thread nD τ).loc main_arg4))
        (row0 ((dat0 (V0 m ρ) c).arrAt 2 cfg0.N)) := by
  show StableHlo.after hostOps1 (W1 m ρ c) (Proc.devRef .tc main_v21) = _
  after_results_simp
  rw [W1_v0, W1_arg2, W1_arg3, W1_arg4]
  rfl

set_option maxHeartbeats 2000000 in
/-- Region 1's second operand: support 1's sparse product of support 1 of region 0's output. -/
theorem entry_v42 (c : Dev nD) : V2 m ρ c main_v42
    = spmm1 (m ((c : Thread nD τ).loc main_arg2)) (m ((c : Thread nD τ).loc main_arg3)) (m ((c : Thread nD τ).loc main_arg4))
        (row1 ((dat0 (V0 m ρ) c).arrAt 2 cfg0.N)) := by
  show StableHlo.after hostOps1 (W1 m ρ c) (Proc.devRef .tc main_v42) = _
  after_results_simp
  rw [W1_v0, W1_arg2, W1_arg3, W1_arg4]
  rfl

/-! ## The result buffer after the run -/

/-- The last boundary's contents at the result buffer: `resultOf` of the launch contents of the five arguments. -/
theorem result_eq (c : Dev nD) : W3 m ρ c (Proc.devRef .tc main_v43)
    = resultOf (m ((c : Thread nD τ).loc main_arg0)) (m ((c : Thread nD τ).loc main_arg1)) (m ((c : Thread nD τ).loc main_arg2))
        (m ((c : Thread nD τ).loc main_arg3)) (m ((c : Thread nD τ).loc main_arg4)) := by
  refine (W3_arr m ρ c 2).trans ((AddRelu.final (F := Ideal) (V2 m ρ) c).trans ?_)
  rw [entry_v21, entry_v42, PreSup.final (V0 m ρ) c]
  rfl

/-- Every weakly fair execution of the kernel program terminates with the result buffer at `resultOf` of the arguments
    and the arguments unchanged. -/
theorem run : θ_run defs (onTc (τ := τ) (main (F := Ideal))) ⟨m, fun _ => 0, ρ⟩ (fun r => ∀ c : Dev nD,
      r.2.mem ((c.tc : Thread nD τ).loc main_v43)
        = resultOf (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Cert.KernelIdeal.RunValue.run_named (F := Ideal) m ρ)

end Cert.KernelIdeal.Whole

end
-- ==== Proof.Bridge.lean ====
/-
  The reference's result term is the kernel's function of the arguments.

  The reference computes, per support s, the dense product x · W[s] on the host, applies the same sparse product to it,
  adds the two supports onto an array of zeros and clamps at zero.  Three facts join it to `resultOf`:
    * support s of `preSup x W` IS x · W[s]: entry (n, d) of either is ∑_l x[n, l] · W[s, l, d] (the host's product
      read as a plain sum over the contracted coordinate, a slice and a reshape read at an index);
    * adding onto the zero array changes nothing: 0 + a = a on the extended reals, whatever a is;
    * the maximum with the zero array is the maximum with zero, entry by entry.
  None of them needs the inputs finite.  The sparse product is never opened.
-/
import proofs.«134036_j72430328480132_1_alg».proof.Proof.Result
import proofs.«134036_j72430328480132_1_alg».proof.Proof.Gen.ReferenceIdeal
import proofs.«134036_j72430328480132_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx
open Cert.ReferenceIdeal Cert.ReferenceIdeal.Facts₀
open Cert.GraphConv (spmm)

/-- The zero array over nodes × features, as the reference spells it. -/
abbrev zeros : FVec Ideal S100000x64 .f32 :=
  broadcastInDim S100000x64 ![] bcast_S_S100000x64 (constant (F := Ideal) S_ .f32 0x00000000#32)

/-- The reference's dense matrix of support 0: the features against support 0's weights. -/
abbrev dense0 (x : FVec Ideal S100000x256 .f32) (w : FVec Ideal S2x256x64 .f32) : FVec Ideal S100000x64 .f32 :=
  Host.dotGeneral dot_S100000x256_S256x64_S100000x64_1_0_0_1_n_n none x
    (shapeCast S256x64 (extractStridedSlice S1x256x64 ![0, 0, 0] w slices_S2x256x64_S1x256x64_0_0_0) shapeCasts_S1x256x64_S256x64)
/-- The reference's dense matrix of support 1. -/
abbrev dense1 (x : FVec Ideal S100000x256 .f32) (w : FVec Ideal S2x256x64 .f32) : FVec Ideal S100000x64 .f32 :=
  Host.dotGeneral dot_S100000x256_S256x64_S100000x64_1_0_0_1_n_n none x
    (shapeCast S256x64 (extractStridedSlice S1x256x64 ![1, 0, 0] w slices_S2x256x64_S1x256x64_1_0_0) shapeCasts_S1x256x64_S256x64)

/-- The sparse product of support 0's edge tables, over the reference's dimension records. -/
abbrev spmmR0 (val : FVec Ideal S2x1600000 .f32) (src dst : IVec S2x1600000 32) (dense : FVec Ideal S100000x64 .f32) : FVec Ideal S100000x64 .f32 :=
  spmm gather_S100000x64_S1600000x1_S1600000x64_1_0_n_n_0_1_164 scatter_S100000x64_S1600000x1_S1600000x64_1_0_0_1 ![0, 0]
    slices_S2x1600000_S1x1600000_0_0 shapeCasts_S1x1600000_S1600000 bcast_S_S1600000 bcast_S1600000_S1600000x1_0
    bcast_S1600000x1_S1600000x64_0_1 bcast_S_S100000x64 val src dst dense
/-- The same for support 1's edge tables. -/
abbrev spmmR1 (val : FVec Ideal S2x1600000 .f32) (src dst : IVec S2x1600000 32) (dense : FVec Ideal S100000x64 .f32) : FVec Ideal S100000x64 .f32 :=
  spmm gather_S100000x64_S1600000x1_S1600000x64_1_0_n_n_0_1_164 scatter_S100000x64_S1600000x1_S1600000x64_1_0_0_1 ![1, 0]
    slices_S2x1600000_S1x1600000_1_0 shapeCasts_S1x1600000_S1600000 bcast_S_S1600000 bcast_S1600000_S1600000x1_0
    bcast_S1600000x1_S1600000x64_0_1 bcast_S_S100000x64 val src dst dense

/-- The reference's result as its run states it: the two supports' sparse products of x · W[s], added onto zeros,
    clamped at zero. -/
def refResult (x : FVec Ideal S100000x256 .f32) (w : FVec Ideal S2x256x64 .f32) (val : FVec Ideal S2x1600000 .f32)
    (src dst : IVec S2x1600000 32) : FVec Ideal S100000x64 .f32 :=
  maximumf (addf (addf zeros (spmmR0 val src dst (dense0 x w))) (spmmR1 val src dst (dense1 x w))) zeros

/-- Adding onto the zero array changes nothing. -/
theorem zeros_addf (a : FVec Ideal S100000x64 .f32) : addf zeros a = a := by
  funext i
  show Ideal.ofBits .f32 0x00000000#32 + a i = a i
  rw [Ideal.ofBits_zero_f32, zero_add]

/-- Support 0 of the projection is the features against support 0's weights: entry (n, d) of either is
    ∑_l x[n, l] · W[0, l, d]. -/
theorem row0_eq (x : FVec Ideal S100000x256 .f32) (w : FVec Ideal S2x256x64 .f32) :
    Cert.KernelIdeal.Whole.row0 (Cert.KernelIdeal.PreSup.preSup x w) = dense0 x w := by
  funext i
  obtain ⟨n, d, rfl⟩ : ∃ (n : Fin 100000) (d : Fin 64), i = ix2 n d := ⟨i 0, i 1, eq_ix2 i⟩
  refine (shapeCast_1ab_ab_apply _ _ n d).trans ?_
  refine (extractStridedSlice_apply _ _ _ _ (ix3 (0 : Fin 2) n d) (fun a => by
    match a with
    | ⟨0, _⟩ => rfl
    | ⟨1, _⟩ => exact (Nat.zero_add _).symm
    | ⟨2, _⟩ => exact (Nat.zero_add _).symm)).trans ?_
  refine Eq.trans ?_ (Cert.Gcn.dotGeneral_plain_apply _ ⟨rfl, rfl, rfl, rfl, rfl, rfl⟩ none x _ n d).symm
  show (∑ l : Fin 256, x (ix2 n l) * w (ix3 (0 : Fin 2) l d)) = _
  refine Finset.sum_congr rfl fun l _ => ?_
  refine congrArg (fun z => x (ix2 n l) * z) ?_
  refine Eq.symm ((shapeCast_1ab_ab_apply _ _ l d).trans ?_)
  exact extractStridedSlice_apply _ _ _ _ (ix3 (0 : Fin 2) l d) (fun a => by
    match a with
    | ⟨0, _⟩ => rfl
    | ⟨1, _⟩ => exact (Nat.zero_add _).symm
    | ⟨2, _⟩ => exact (Nat.zero_add _).symm)

/-- Support 1 of the projection is the features against support 1's weights. -/
theorem row1_eq (x : FVec Ideal S100000x256 .f32) (w : FVec Ideal S2x256x64 .f32) :
    Cert.KernelIdeal.Whole.row1 (Cert.KernelIdeal.PreSup.preSup x w) = dense1 x w := by
  funext i
  obtain ⟨n, d, rfl⟩ : ∃ (n : Fin 100000) (d : Fin 64), i = ix2 n d := ⟨i 0, i 1, eq_ix2 i⟩
  refine (shapeCast_1ab_ab_apply _ _ n d).trans ?_
  refine (extractStridedSlice_apply _ _ _ _ (ix3 (1 : Fin 2) n d) (fun a => by
    match a with
    | ⟨0, _⟩ => rfl
    | ⟨1, _⟩ => exact (Nat.zero_add _).symm
    | ⟨2, _⟩ => exact (Nat.zero_add _).symm)).trans ?_
  refine Eq.trans ?_ (Cert.Gcn.dotGeneral_plain_apply _ ⟨rfl, rfl, rfl, rfl, rfl, rfl⟩ none x _ n d).symm
  show (∑ l : Fin 256, x (ix2 n l) * w (ix3 (1 : Fin 2) l d)) = _
  refine Finset.sum_congr rfl fun l _ => ?_
  refine congrArg (fun z => x (ix2 n l) * z) ?_
  refine Eq.symm ((shapeCast_1ab_ab_apply _ _ l d).trans ?_)
  exact extractStridedSlice_apply _ _ _ _ (ix3 (1 : Fin 2) l d) (fun a => by
    match a with
    | ⟨0, _⟩ => rfl
    | ⟨1, _⟩ => exact (Nat.zero_add _).symm
    | ⟨2, _⟩ => exact (Nat.zero_add _).symm)

/-- The two programs print the gather's dimension numbers as two records with the same fields. -/
theorem gather_eq : gather_S100000x64_S1600000x1_S1600000x64_1_0_n_n_0_1_164
    = Cert.KernelIdeal.gather_S100000x64_S1600000x1_S1600000x64_1_0_n_n_0_1_164 := rfl
/-- Likewise the scatter's. -/
theorem scatter_eq : scatter_S100000x64_S1600000x1_S1600000x64_1_0_0_1
    = Cert.KernelIdeal.scatter_S100000x64_S1600000x1_S1600000x64_1_0_0_1 := rfl

/-- So the two spellings of support 0's sparse product are one function (the dense matrix a variable: nothing of the
    product is opened). -/
theorem spmm0_eq (val : FVec Ideal S2x1600000 .f32) (src dst : IVec S2x1600000 32) (dense : FVec Ideal S100000x64 .f32) :
    spmmR0 val src dst dense = Cert.KernelIdeal.Whole.spmm0 val src dst dense := by
  show spmm gather_S100000x64_S1600000x1_S1600000x64_1_0_n_n_0_1_164 scatter_S100000x64_S1600000x1_S1600000x64_1_0_0_1 _ _ _ _ _ _ _ val src dst dense
    = spmm Cert.KernelIdeal.gather_S100000x64_S1600000x1_S1600000x64_1_0_n_n_0_1_164 Cert.KernelIdeal.scatter_S100000x64_S1600000x1_S1600000x64_1_0_0_1 _ _ _ _ _ _ _ val src dst dense
  rw [gather_eq, scatter_eq]
/-- And support 1's. -/
theorem spmm1_eq (val : FVec Ideal S2x1600000 .f32) (src dst : IVec S2x1600000 32) (dense : FVec Ideal S100000x64 .f32) :
    spmmR1 val src dst dense = Cert.KernelIdeal.Whole.spmm1 val src dst dense := by
  show spmm gather_S100000x64_S1600000x1_S1600000x64_1_0_n_n_0_1_164 scatter_S100000x64_S1600000x1_S1600000x64_1_0_0_1 _ _ _ _ _ _ _ val src dst dense
    = spmm Cert.KernelIdeal.gather_S100000x64_S1600000x1_S1600000x64_1_0_n_n_0_1_164 Cert.KernelIdeal.scatter_S100000x64_S1600000x1_S1600000x64_1_0_0_1 _ _ _ _ _ _ _ val src dst dense
  rw [gather_eq, scatter_eq]

/-- The maximum with the zero array is the maximum with zero, entry by entry (the two summands variables). -/
theorem clamp_eq (A B : FVec Ideal S100000x64 .f32) :
    maximumf (addf A B) zeros = Cert.KernelIdeal.AddRelu.addRelu (F := Ideal) A B := by
  funext i
  rfl

/-- The reference's result is the kernel's function of the arguments. -/
theorem ref_eq (x : FVec Ideal S100000x256 .f32) (w : FVec Ideal S2x256x64 .f32) (val : FVec Ideal S2x1600000 .f32)
    (src dst : IVec S2x1600000 32) :
    refResult x w val src dst = Cert.KernelIdeal.Whole.resultOf x w val src dst := by
  unfold refResult Cert.KernelIdeal.Whole.resultOf
  rw [zeros_addf, row0_eq, row1_eq, spmm0_eq, spmm1_eq]
  exact clamp_eq _ _

end Cert.Bridge

end
-- ==== Proof.lean ====
/-
  A two-support graph convolution:  out = max(0, ∑_{s<2} A_s · (x · W_s)),  A_s the sparse matrix whose edge e adds
  val_s[e] times row src_s[e] into row dst_s[e].

  The kernel program computes the dense products x · W_s in a first kernel region (40 blocks of 5000 rows, the product
  into a zero accumulator), lets the host do the two sparse products, and adds and clamps them in a second kernel region
  (20 blocks of 5000 rows).  The reference does every step on the host and starts its sum from an array of zeros.  On
  the extended reals both end at the SAME function `resultOf` of the five arguments:
    * region 0's output array is `preSup x W (s, n, d) = ∑_l x[n, l] · W[s, l, d]`  (Proof/PreSup.lean), whose support
      s is the host's x · W[s]  (Proof/Bridge.lean: both read at an entry as that plain sum);
    * the sparse product is one function applied to that matrix on either side and is never opened  (Proof/Tail.lean);
    * region 1's output array is `max (A + B) 0` entry by entry  (Proof/AddRelu.lean), and the reference's
      `max ((0 + A) + B) 0` is the same because 0 + a = a for every extended real a.
  No step needs the inputs finite, so the precondition is never opened.  The kernel's run with its result named is
  Proof/KernelRun.lean and Proof/KernelValue.lean; the reference's is its generated run.  The idealization rewrote no
  operation, so `preserves` has nothing to state.
-/
import proofs.«134036_j72430328480132_1_alg».proof.Defs
import proofs.«134036_j72430328480132_1_alg».proof.Proof.Gen.Kernel
import proofs.«134036_j72430328480132_1_alg».proof.Proof.Gen.Kernel.Frame
import proofs.«134036_j72430328480132_1_alg».proof.Proof.Gen.KernelIdeal
import proofs.«134036_j72430328480132_1_alg».proof.Proof.Gen.KernelIdeal.Frame
import proofs.«134036_j72430328480132_1_alg».proof.Proof.Gen.ReferenceIdeal
import proofs.«134036_j72430328480132_1_alg».proof.Proof.Gen.ReferenceIdeal.Run
import proofs.«134036_j72430328480132_1_alg».proof.Proof.Gen.Pre_finite_inputs
import proofs.«134036_j72430328480132_1_alg».proof.Proof.KernelValue
import proofs.«134036_j72430328480132_1_alg».proof.Proof.Bridge

noncomputable section

namespace Cert.Proof

open Idealize.ShloMosaic Idealize.SL.Sem

/-- The word-level kernel program terminates without a fault and keeps its arguments: the generated frame. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with their result at `resultOf` of the (agreeing) arguments. -/
theorem algebraic : Cert.algebraic_KernelIdeal_ReferenceIdeal := by
  intro m ρ m' ρ' _ hagree
  refine ⟨fun c => Cert.KernelIdeal.Whole.resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4]
  exact Cert.Bridge.ref_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
